-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_cst_10 : FVec F S_ .f32 := constant S_ .f32 0x00000000#32
  let main_v29 : FVec F S4096 .f32 := broadcastInDim S4096 ![] bcast_S_S4096 main_cst_10
  let main_v30 : IVec S4096 1 := cmpf .oge main_arg5 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v28 main_v31
  main_v32

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x4096.size a
  hwx0_6 : ∀ i : grid0.Coords, EltTy.bits .f32 = 32 ∨ (Rect.block (s := S8192x4096) S1024x512.size (cc0_transform_6 i) (hinb0_6 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096 : S_.BroadcastsInDim S4096 (![] : Fin 0 → Fin S4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.VarianceDomain.lean ====
/-
  What the precondition says of the variance.

  The precondition is a conjunction of `all`-reductions, one per condition, each over a whole argument; its last
  conjunct compares every entry of the variance with zero. Where the conjunction is true, that reduction is true, so
  every comparison in it is: no entry of the variance is negative.
-/
import proofs.«135392_j3556232922286_1_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic

/-- The scalar shape has one index. -/
instance : Subsingleton S_.Idx := ⟨fun a b => funext fun d => d.elim0⟩

/-- Under the precondition every entry of the sixth argument, the variance, is at least zero. -/
theorem var_nonneg [Facts] (a0 : FVec Ideal S8192x4096 .f32) (a1 : FVec Ideal S4096x4096 .f32)
    (a2 a3 a4 a5 : FVec Ideal S4096 .f32) (h : fn (F := Ideal) a0 a1 a2 a3 a4 a5 = fun _ => 1#1) (n : S4096.Idx) :
    0 ≤ a5 n := by
  have h0 := congrFun h ValueIdx.ix0
  dsimp only [fn, fn_part1] at h0
  obtain ⟨-, hall⟩ := IntOp.andi_eq_one.1 h0
  have hc := Host.reduce_andi_all _ _ _ _ _ hall n
  have hc' : Ideal.cmp .oge (a5 n) (Ideal.ofBits .f32 0x00000000#32) = 1#1 := hc
  rw [Ideal.ofBits_zero_f32] at hc'
  simp only [Ideal.cmp] at hc'
  by_contra hneg
  rw [decide_eq_false hneg] at hc'
  exact absurd hc' (by decide)

end Cert.Pre_finite_inputs.Decode

end
-- ==== Proof.Epilogue.lean ====
/-
  One element of the result, as a function on the extended reals.

  Both programs compute, at row `r` and column `n`,
      act (γ n · xnorm + β n),   act y = max (½ · y · (1 + tanh (c₁ · (y + c₂ · y · y · y)))) 0,
  where `xnorm` normalises the accumulated product `acc = ∑ k, x r k · w k n` by the column's mean and variance.
  They differ in one place only: one multiplies `acc - μ n` by the reciprocal root of `σ² n + ε`, the other
  divides it by the root. On the extended reals the two agree whenever `σ² n + ε` is positive (the root is then a
  nonzero real, or `⊤` with reciprocal `0`), and they part at zero and below it, where the root or its reciprocal
  is an infinity or the junk value. A variance that is not negative keeps `σ² n + ε` positive, because `ε` is.
-/
import Idealize.ShloMosaic.PureOps.Ideal
import Idealize.ShloMosaic.PureOps.Ideal.Laws
import Idealize.ShloMosaic.Lib.ValueIdx

noncomputable section

open scoped BigOperators

namespace Cert.Epilogue

open Idealize.ShloMosaic Idealize.ShloMosaic.ValueIdx

/-- The constant added to the variance before the root: the binary fraction nearest to 10⁻⁵. -/
abbrev eps : EReal := Ideal.ofBits .f32 0x3727C5AC#32

/-- It is a positive real. -/
theorem eps_pos : 0 < eps := by
  unfold eps
  simp [Ideal.ofBits, Ideal.ieee]
  rw [← EReal.coe_mul]
  exact_mod_cast (by positivity : (0 : ℝ) < 10995116 * ((2 : ℝ) ^ 40)⁻¹)

/-- The product with the reciprocal root is the quotient by the root, for a positive radicand: a positive real has a
    nonzero real root whose reciprocal is the reciprocal root; at `⊤` the reciprocal root is `0` and so is the
    reciprocal of the root `⊤`. -/
theorem mul_rsqrt_eq_div_sqrt (a v : EReal) (hv : 0 < v) : a * Ideal.rsqrt v = Ideal.div a (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]

/-- The activation: the tanh form of GELU, then the positive part. -/
def act (y : EReal) : EReal :=
  max (Ideal.ofBits .f32 0x3F000000#32 * y
      * (Ideal.ofBits .f32 0x3F800000#32
          + Ideal.tanh (Ideal.ofBits .f32 0x3F4C422A#32 * (y + Ideal.ofBits .f32 0x3D372713#32 * y * y * y))))
    (Ideal.ofBits .f32 0x00000000#32)

/-- One element from the accumulated product and the column's four parameters, normalised by the product with the
    reciprocal root. -/
def elem (acc g b mu v : EReal) : EReal := act (g * ((acc - mu) * Ideal.rsqrt (v + eps)) + b)

/-- The same element normalised by the quotient by the root. -/
def elemDiv (acc g b mu v : EReal) : EReal := act (g * Ideal.div (acc - mu) (Ideal.sqrt (v + eps)) + b)

/-- For a variance that is not negative the two normalisations agree. -/
theorem elemDiv_eq (acc g b mu v : EReal) (hv : 0 ≤ v) : elemDiv acc g b mu v = elem acc g b mu v := by
  unfold elemDiv elem
  rw [mul_rsqrt_eq_div_sqrt _ _ (lt_of_lt_of_le eps_pos (le_add_of_nonneg_left hv))]

/-- The whole result: element (r, n) from row `r` of `x`, column `n` of `w` and entry `n` of each parameter. -/
def out (x : (⟨2, ![8192, 4096]⟩ : Shape).Idx → EReal) (w : (⟨2, ![4096, 4096]⟩ : Shape).Idx → EReal)
    (g b mu v : (⟨1, ![4096]⟩ : Shape).Idx → EReal) : (⟨2, ![8192, 4096]⟩ : Shape).Idx → EReal :=
  fun i => elem (∑ k : Fin 4096, x (ix2 (i 0) k) * w (ix2 k (i 1)))
    (g (ix1 (i 1))) (b (ix1 (i 1))) (mu (ix1 (i 1))) (v (ix1 (i 1)))

end Cert.Epilogue

end
-- ==== Proof.ReferenceElement.lean ====
/-
  The reference's result, read one element at a time.

  Element (r, n) of the reference's last stage is the activation of
      γ n · ((∑ k, x r k · w k n) − μ n) / √(σ² n + ε) + β n:
  the product of `x` and `w` contracted over the shared axis, each per-column parameter broadcast along the rows, the
  variance shifted by ε under the root. Where no variance is negative the quotient by the root is the product with the
  reciprocal root, so the stage is the whole-array function `Cert.Epilogue.out` of the six arguments.
-/
import proofs.«135392_j3556232922286_1_alg».proof.Proof.Gen.ReferenceIdeal.Read
import proofs.«135392_j3556232922286_1_alg».proof.Proof.Epilogue

noncomputable section

open scoped BigOperators

namespace Cert.ReferenceIdeal.Element

open Cert.ReferenceIdeal Cert.ReferenceIdeal.Gen Cert.ReferenceIdeal.Read Idealize.ShloMosaic Idealize.ShloMosaic.ValueIdx
open Cert.Epilogue

variable (x0 : S8192x4096.Idx → EReal) (x1 : S4096x4096.Idx → EReal) (x2 x3 x4 x5 : S4096.Idx → EReal)

/-- The affine stage at (r, n): scale γ n times the centred product over the root, plus the shift β n. -/
theorem affine_at (i : S8192x4096.Idx) :
    val_main_v15 (F := Ideal) x0 x1 x2 x3 x4 x5 i
      = x2 (ix1 (i 1)) * Ideal.div ((∑ k : Fin 4096, x0 (ix2 (i 0) k) * x1 (ix2 k (i 1))) - x4 (ix1 (i 1)))
          (Ideal.sqrt (x5 (ix1 (i 1)) + eps)) + x3 (ix1 (i 1)) := by
  have e10 : idx_main_v10 (idx_main_v11 i) = ix1 (i 1) := funext fun a => Fin.ext (by match a with | ⟨0, _⟩ => rfl)
  have e1 : idx_main_v1 (idx_main_v2 i) = ix1 (i 1) := funext fun a => Fin.ext (by match a with | ⟨0, _⟩ => rfl)
  have e7 : idx_main_v7 (idx_main_v8 i) = ix1 (i 1) := funext fun a => Fin.ext (by match a with | ⟨0, _⟩ => rfl)
  have e13 : idx_main_v13 (idx_main_v14 i) = ix1 (i 1) := funext fun a => Fin.ext (by match a with | ⟨0, _⟩ => rfl)
  have el : ∀ k : Fin 4096, lidx_main_v0 i k = ix2 (i 0) k := fun k => funext fun a => Fin.ext (by
    match a with | ⟨0, _⟩ => rfl | ⟨1, _⟩ => rfl)
  have er : ∀ k : Fin 4096, ridx_main_v0 i k = ix2 k (i 1) := fun k => funext fun a => Fin.ext (by
    match a with | ⟨0, _⟩ => rfl | ⟨1, _⟩ => rfl)
  rw [val_main_v15_apply, val_main_v12_apply, val_main_v11_apply, val_main_v10_apply, val_main_v9_apply,
    val_main_v3_apply, val_main_v0_apply, val_main_v2_apply, val_main_v1_apply, val_main_v8_apply, val_main_v7_apply,
    val_main_v6_apply, val_main_v5_apply, val_main_v4_apply, val_main_cst_apply, val_main_v14_apply, val_main_v13_apply]
  simp only [e10, e1, e7, e13, el, er, Ideal.addf_def, Ideal.subf_def, Ideal.mulf_def, Ideal.hostDivf_def,
    Ideal.hostUnary_sqrt_def, Ideal.ofBits_def]
  rfl

/-- The last stage at (r, n) is the activation of the affine stage there; with no negative variance that is the
    element of `Cert.Epilogue.out`. -/
theorem result_eq (hv : ∀ n, 0 ≤ x5 n) :
    val_main_v30 (F := Ideal) x0 x1 x2 x3 x4 x5 = out x0 x1 x2 x3 x4 x5 := by
  funext i
  rw [val_main_v30_apply, val_main_v28_apply, val_main_v17_apply, val_main_v16_apply, val_main_cst_0_apply,
    val_main_v27_apply, val_main_v26_apply, val_main_cst_3_apply, val_main_v25_apply, val_main_v24_apply,
    val_main_v23_apply, val_main_cst_2_apply, val_main_v22_apply, val_main_v21_apply, val_main_v20_apply,
    val_main_v19_apply, val_main_v18_apply, val_main_cst_1_apply, val_main_v29_apply, val_main_cst_4_apply,
    affine_at]
  simp only [Ideal.addf_def, Ideal.mulf_def, Ideal.maximumf_def, Ideal.hostUnary_tanh_def, Ideal.ofBits_def]
  exact elemDiv_eq _ _ _ _ _ (hv _)

end Cert.ReferenceIdeal.Element

end
-- ==== Proof.KernelElement.lean ====
/-
  The kernel body's value, read one element at a time.

  The body multiplies a [1024, 4096] block of `x` by a [4096, 512] block of `w` into a zero accumulator, so element
  (p, q) of the product is `∑ k, xblk p k · wblk k q`; the four parameter blocks are single rows [1, 512], each
  broadcast down the 1024 rows, so at (p, q) each contributes its entry (0, q). Every other operation acts element
  by element. Element (p, q) of what the body stores is therefore `Cert.Epilogue.elem` of that sum and of the four row
  entries at column `q`.
-/
import proofs.«135392_j3556232922286_1_alg».proof.Proof.Gen.KernelIdeal.Skeleton
import proofs.«135392_j3556232922286_1_alg».proof.Proof.Epilogue
import Idealize.ShloMosaic.Lib.Pipeline.Value
import Idealize.ShloMosaic.Lib.ValueIdx
import Idealize.ShloMosaic.PureOps.Ideal.Laws

noncomputable section

open scoped BigOperators

namespace Cert.KernelIdeal.Element

open Cert.KernelIdeal Cert.KernelIdeal.Gen Idealize.ShloMosaic Idealize.ShloMosaic.ValueIdx
open Cert.Epilogue

/-- A hyperbolic tangent of a vector at an index is that of the element. -/
theorem tanh_apply {s : Shape} {φ : FTy} (a : FVec Ideal s φ) (i : s.Idx) : tanh a i = Ideal.tanh (a i) := rfl
/-- A reciprocal root of a vector at an index is that of the element. -/
theorem rsqrt_apply {s : Shape} {φ : FTy} (a : FVec Ideal s φ) (i : s.Idx) : rsqrt a i = Ideal.rsqrt (a i) := rfl

/-- A single row [1, 512] broadcast down 1024 rows reads, at (p, q), the row's entry (0, q). -/
theorem row_bcast {α : Type} (v : S1x512.Idx → α) (h : S1x512.Broadcasts S1024x512) (p : Fin 1024) (q : Fin 512) :
    broadcastTo S1024x512 v h (ix2 p q) = v (ix2 0 q) :=
  broadcastTo_apply v h (ix2 p q) (ix2 0 q) (fun a => match a with
    | ⟨0, _⟩ => by show (0 : Nat) = if (1 : Nat) = 1 then 0 else _; rw [if_pos rfl]
    | ⟨1, _⟩ => by show q.val = if (512 : Nat) = 1 then 0 else _; rw [if_neg (by decide)]; rfl)

/-! The product's operand indices: at output (r, c) and contraction index k the left operand is read at (r, k) and
    the right at (k, c). -/

theorem lhs_axis0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs_axis1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs_axis0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs_axis1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The block product into a zero accumulator, at (p, q): the sum over the 4096 shared indices. -/
theorem matmul_at {φ₁ φ₂ : FTy} (l : FVec Ideal S1024x4096 φ₁) (r : FVec Ideal S4096x512 φ₂) (p : Fin 1024) (q : Fin 512) :
    matmul dot_S1024x4096_S4096x512_S1024x512_1_0_0_1_n_n none l r (constant S1024x512 .f32 0x00000000#32) (ix2 p q)
      = ∑ k : Fin 4096, l (ix2 p k) * r (ix2 k q) := by
  simp only [matmul]
  rw [Ideal.matmul_constant_zero_apply, ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx (ix2 p q) ((ValueIdx.contrEquiv1 dot_S1024x4096_S4096x512_S1024x512_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S1024x4096_S4096x512_S1024x512_1_0_0_1_n_n.rhsIdx (ix2 p q) ((ValueIdx.contrEquiv1 dot_S1024x4096_S4096x512_S1024x512_1_0_0_1_n_n 4096 rfl rfl).symm k) = ix2 k q := funext fun a => Fin.ext (by
    match a with
    | ⟨0, _⟩ => exact (rhs_axis0 _ _).trans hk
    | ⟨1, _⟩ => exact rhs_axis1 _ _)
  rw [el, er]

/-- ELEMENT (p, q) OF WHAT THE BODY STORES, from its six loaded blocks. -/
theorem pay_at (v0 : Vec Ideal S1024x4096 .f32) (v2 : Vec Ideal S4096x512 .f32) (v5 v7 v9 v11 : Vec Ideal S1x512 .f32)
    (p : Fin 1024) (q : Fin 512) :
    k0_pay1 (F := Ideal) v0 v2 v5 v7 v9 v11 (ix2 p q)
      = elem (∑ k : Fin 4096, v0 (ix2 p k) * v2 (ix2 k q)) (v5 (ix2 0 q)) (v7 (ix2 0 q)) (v9 (ix2 0 q)) (v11 (ix2 0 q)) := by
  unfold k0_pay1
  simp only [shapeCast_self, maximumf_apply, mulf_apply, addf_apply, subf_apply, broadcast_apply, tanh_apply, rsqrt_apply,
    row_bcast, matmul_at, truncf_apply]
  rfl

end Cert.KernelIdeal.Element

end
-- ==== Proof.KernelArray.lean ====
/-
  From the kernel's blocks to its whole result array.

  The 64 grid points are the pairs (i, j) of a row-block index and a column-block index, point `t` being
  (t / 8, t % 8). At point `t` the body sees rows `1024 (t / 8) …` of `x` (all 4096 columns), columns
  `512 (t % 8) …` of `w` (all 4096 rows) and the same 512 columns of each parameter, laid out as a single row; it
  writes the [1024, 512] block of the result at those rows and columns. Element (p, q) of that block is the
  element function of row `1024 (t / 8) + p` of `x` and column `512 (t % 8) + q` of `w` and of the parameters:
  block `t` of `Cert.Epilogue.out`. The 64 blocks tile the [8192, 4096] result, so after the run the result array
  is `Cert.Epilogue.out` of the six arguments.
-/
import proofs.«135392_j3556232922286_1_alg».proof.Proof.Gen.KernelIdeal.Value
import proofs.«135392_j3556232922286_1_alg».proof.Proof.KernelElement
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Epilogue Cert.KernelIdeal.Element
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t` = (t / 8, t % 8), decided over the 64 points. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = 0 ∧ win0_5.index t (1 : Fin 2) = t.val % 8
    ∧ win0_6.index t (0 : Fin 2) = t.val / 8 ∧ win0_6.index t (1 : Fin 2) = t.val % 8 :=
  (by decide +kernel : ∀ t : Fin grid0.N, _)

/-- The row of the result that row `p` of point `t`'s block is. -/
def row (t : Fin cfg0.N) (p : Fin 1024) : Fin 8192 :=
  ⟨1024 * (t.val / 8) + p.val, by have h1 := t.isLt; have h2 : cfg0.N = 64 := N_0; have := p.isLt; omega⟩
/-- The column of the result that column `q` of point `t`'s block is. -/
def col (t : Fin cfg0.N) (q : Fin 512) : Fin 4096 :=
  ⟨512 * (t.val % 8) + q.val, by have := q.isLt; omega⟩

/-! ## The parameters as the region finds them: each a vector laid out as one row -/

theorem V_gamma (c : Dev nD) : (V m c main_v0 : S1x4096.Idx → EReal)
    = shapeCast S1x4096 (m ((c : Thread nD τ).loc main_arg2)) shapeCasts_S4096_S1x4096 := by
  dsimp only [V, hostOps0]; after_results; rfl
theorem V_beta (c : Dev nD) : (V m c main_v1 : S1x4096.Idx → EReal)
    = shapeCast S1x4096 (m ((c : Thread nD τ).loc main_arg3)) shapeCasts_S4096_S1x4096 := by
  dsimp only [V, hostOps0]; after_results; rfl
theorem V_mean (c : Dev nD) : (V m c main_v2 : S1x4096.Idx → EReal)
    = shapeCast S1x4096 (m ((c : Thread nD τ).loc main_arg4)) shapeCasts_S4096_S1x4096 := by
  dsimp only [V, hostOps0]; after_results; rfl
theorem V_var (c : Dev nD) : (V m c main_v3 : S1x4096.Idx → EReal)
    = shapeCast S1x4096 (m ((c : Thread nD τ).loc main_arg5)) shapeCasts_S4096_S1x4096 := by
  dsimp only [V, hostOps0]; after_results; rfl

/-- A vector of 4096 entries laid out as one row reads, at (0, n), entry `n`. -/
theorem row_of_vec {α : Type} (x : S4096.Idx → α) (h : S4096.ShapeCasts S1x4096) (z : Fin 1) (n : Fin 4096) :
    shapeCast S1x4096 x h (ix2 z n) = x (ix1 n) :=
  shapeCast_apply x h (ix2 z n) (ix1 n) (by
    rw [Shape.rowMajor_val_one, Shape.rowMajor_val_two]
    show n.val = z.val * 4096 + n.val
    have := z.isLt; omega)

/-! ## Each input block at a point, element by element -/

/-- The input blocks at a point, each named at its literal type. -/
abbrev xblk (c : Dev nD) (t : Fin cfg0.N) : Vec Ideal S1024x4096 .f32 := iblk m c 0 t
abbrev wblk (c : Dev nD) (t : Fin cfg0.N) : Vec Ideal S4096x512 .f32 := iblk m c 1 t
abbrev gblk (c : Dev nD) (t : Fin cfg0.N) : Vec Ideal S1x512 .f32 := iblk m c 2 t
abbrev bblk (c : Dev nD) (t : Fin cfg0.N) : Vec Ideal S1x512 .f32 := iblk m c 3 t
abbrev mblk (c : Dev nD) (t : Fin cfg0.N) : Vec Ideal S1x512 .f32 := iblk m c 4 t
abbrev vblk (c : Dev nD) (t : Fin cfg0.N) : Vec Ideal S1x512 .f32 := iblk m c 5 t

/-- Element (p, k) of `x`'s block at point `t` is `x` at row `row t p`, column `k`. -/
theorem xblk_at (c : Dev nD) (t : Fin cfg0.N) (p : Fin 1024) (k : Fin 4096) :
    xblk m c t (ix2 p k)
      = (m ((c : Thread nD τ).loc main_arg0) : S8192x4096.Idx → EReal) (ix2 (row t p) k) := by
  obtain ⟨h0, h1, -⟩ := idx_facts t
  unfold xblk iblk
  rw [View.read_apply]
  show V m c main_arg0 _ = _
  rw [V_main_arg0]
  congr 1
  funext a
  apply Fin.ext
  match a with
  | ⟨0, _⟩ => show win0_0.index t 0 * 1024 + 1 * p.val = 1024 * (t.val / 8) + p.val; rw [h0]; omega
  | ⟨1, _⟩ => show win0_0.index t 1 * 4096 + 1 * k.val = k.val; rw [h1]; omega

/-- Element (k, q) of `w`'s block at point `t` is `w` at row `k`, column `col t q`. -/
theorem wblk_at (c : Dev nD) (t : Fin cfg0.N) (k : Fin 4096) (q : Fin 512) :
    wblk m c t (ix2 k q)
      = (m ((c : Thread nD τ).loc main_arg1) : S4096x4096.Idx → EReal) (ix2 k (col t q)) := by
  obtain ⟨-, -, h0, h1, -⟩ := idx_facts t
  unfold wblk iblk
  rw [View.read_apply]
  show V m c main_arg1 _ = _
  rw [V_main_arg1]
  congr 1
  funext a
  apply Fin.ext
  match a with
  | ⟨0, _⟩ => show win0_1.index t 0 * 4096 + 1 * k.val = k.val; rw [h0]; omega
  | ⟨1, _⟩ => show win0_1.index t 1 * 512 + 1 * q.val = 512 * (t.val % 8) + q.val; rw [h1]; omega

/-- Entry (0, q) of the scale's block at point `t` is the scale at `col t q`. -/
theorem gblk_at (c : Dev nD) (t : Fin cfg0.N) (z : Fin 1) (q : Fin 512) :
    gblk m c t (ix2 z q)
      = (m ((c : Thread nD τ).loc main_arg2) : S4096.Idx → EReal) (ix1 (col t q)) := by
  obtain ⟨-, -, -, -, h0, h1, -⟩ := idx_facts t
  unfold gblk iblk
  rw [View.read_apply]
  show V m c main_v0 _ = _
  rw [V_gamma]
  refine shapeCast_apply _ _ _ _ ?_
  refine (Shape.rowMajor_val_one (d := ![4096]) (ix1 (col t q))).trans
    (Eq.trans ?_ (Shape.rowMajor_val_two (d := ![1, 4096]) (((cfg0.win 2).blk t).view.emb (ix2 z q))).symm)
  show 512 * (t.val % 8) + q.val = (win0_2.index t 0 * 1 + 1 * z.val) * 4096 + (win0_2.index t 1 * 512 + 1 * q.val)
  rw [h0, h1]
  have := z.isLt
  omega

/-- Entry (0, q) of the shift's block at point `t` is the shift at `col t q`. -/
theorem bblk_at (c : Dev nD) (t : Fin cfg0.N) (z : Fin 1) (q : Fin 512) :
    bblk m c t (ix2 z q)
      = (m ((c : Thread nD τ).loc main_arg3) : S4096.Idx → EReal) (ix1 (col t q)) := by
  obtain ⟨-, -, -, -, -, -, h0, h1, -⟩ := idx_facts t
  unfold bblk iblk
  rw [View.read_apply]
  show V m c main_v1 _ = _
  rw [V_beta]
  refine shapeCast_apply _ _ _ _ ?_
  refine (Shape.rowMajor_val_one (d := ![4096]) (ix1 (col t q))).trans
    (Eq.trans ?_ (Shape.rowMajor_val_two (d := ![1, 4096]) (((cfg0.win 3).blk t).view.emb (ix2 z q))).symm)
  show 512 * (t.val % 8) + q.val = (win0_3.index t 0 * 1 + 1 * z.val) * 4096 + (win0_3.index t 1 * 512 + 1 * q.val)
  rw [h0, h1]
  have := z.isLt
  omega

/-- Entry (0, q) of the mean's block at point `t` is the mean at `col t q`. -/
theorem mblk_at (c : Dev nD) (t : Fin cfg0.N) (z : Fin 1) (q : Fin 512) :
    mblk m c t (ix2 z q)
      = (m ((c : Thread nD τ).loc main_arg4) : S4096.Idx → EReal) (ix1 (col t q)) := by
  obtain ⟨-, -, -, -, -, -, -, -, h0, h1, -⟩ := idx_facts t
  unfold mblk iblk
  rw [View.read_apply]
  show V m c main_v2 _ = _
  rw [V_mean]
  refine shapeCast_apply _ _ _ _ ?_
  refine (Shape.rowMajor_val_one (d := ![4096]) (ix1 (col t q))).trans
    (Eq.trans ?_ (Shape.rowMajor_val_two (d := ![1, 4096]) (((cfg0.win 4).blk t).view.emb (ix2 z q))).symm)
  show 512 * (t.val % 8) + q.val = (win0_4.index t 0 * 1 + 1 * z.val) * 4096 + (win0_4.index t 1 * 512 + 1 * q.val)
  rw [h0, h1]
  have := z.isLt
  omega

/-- Entry (0, q) of the variance's block at point `t` is the variance at `col t q`. -/
theorem vblk_at (c : Dev nD) (t : Fin cfg0.N) (z : Fin 1) (q : Fin 512) :
    vblk m c t (ix2 z q)
      = (m ((c : Thread nD τ).loc main_arg5) : S4096.Idx → EReal) (ix1 (col t q)) := by
  obtain ⟨-, -, -, -, -, -, -, -, -, -, h0, h1, -⟩ := idx_facts t
  unfold vblk iblk
  rw [View.read_apply]
  show V m c main_v3 _ = _
  rw [V_var]
  refine shapeCast_apply _ _ _ _ ?_
  refine (Shape.rowMajor_val_one (d := ![4096]) (ix1 (col t q))).trans
    (Eq.trans ?_ (Shape.rowMajor_val_two (d := ![1, 4096]) (((cfg0.win 5).blk t).view.emb (ix2 z q))).symm)
  show 512 * (t.val % 8) + q.val = (win0_5.index t 0 * 1 + 1 * z.val) * 4096 + (win0_5.index t 1 * 512 + 1 * q.val)
  rw [h0, h1]
  have := z.isLt
  omega

/-! ## The output block at a point, and the whole array -/

/-- The two matrix arguments, each named at its literal type. -/
abbrev xarr (c : Dev nD) : S8192x4096.Idx → EReal := m ((c : Thread nD τ).loc main_arg0)
abbrev warr (c : Dev nD) : S4096x4096.Idx → EReal := m ((c : Thread nD τ).loc main_arg1)

/-- The six arguments' whole-array function. -/
abbrev result (c : Dev nD) : S8192x4096.Idx → EReal :=
  out (xarr m c) (warr m c) (m ((c : Thread nD τ).loc main_arg2))
    (m ((c : Thread nD τ).loc main_arg3)) (m ((c : Thread nD τ).loc main_arg4)) (m ((c : Thread nD τ).loc main_arg5))

/-- Element (p, q) of the output's block at point `t` sits at row `row t p`, column `col t q` of the result. -/
theorem emb_out (t : Fin cfg0.N) (p : Fin 1024) (q : Fin 512) :
    ((cfg0.win 6).blk t).view.emb (ix2 p q) = (ix2 (row t p) (col t q) : S8192x4096.Idx) := by
  obtain ⟨-, -, -, -, -, -, -, -, -, -, -, -, h0, h1⟩ := idx_facts t
  funext a
  apply Fin.ext
  match a with
  | ⟨0, _⟩ => show win0_6.index t 0 * 1024 + 1 * p.val = 1024 * (t.val / 8) + p.val; rw [h0]; omega
  | ⟨1, _⟩ => show win0_6.index t 1 * 512 + 1 * q.val = 512 * (t.val % 8) + q.val; rw [h1]; omega

/-- WHAT POINT `t` WRITES BACK is block `t` of the result function. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S1024x4096) hz, View.ld_unit_zero (S := S4096x512) hz, View.ld_unit_zero (S := S1x512) hz]
  funext j
  obtain ⟨p, q, rfl⟩ : ∃ (p : Fin 1024) (q : Fin 512), j = ix2 p q := ⟨j 0, j 1, eq_ix2 j⟩
  show k0_pay1 (F := Ideal) (xblk m c t) (wblk m c t) (gblk m c t) (bblk m c t) (mblk m c t) (vblk m c t) (ix2 p q)
    = result m c (((cfg0.win 6).blk t).view.emb (ix2 p q))
  rw [emb_out]
  refine (pay_at (xblk m c t) (wblk m c t) (gblk m c t) (bblk m c t) (mblk m c t) (vblk m c t) p q).trans ?_
  have hs : (∑ k : Fin 4096, xblk m c t (ix2 p k) * wblk m c t (ix2 k q))
      = ∑ k : Fin 4096, xarr m c (ix2 (row t p) k) * warr m c (ix2 k (col t q)) :=
    Finset.sum_congr rfl fun k _ => by rw [xblk_at m c t p k, wblk_at m c t k q]
  rw [hs, gblk_at m c t 0 q, bblk_at m c t 0 q, mblk_at m c t 0 q, vblk_at m c t 0 q]
  rfl

/-- An index of the result is in point `t`'s block iff each coordinate is in the block's range on its axis. -/
theorem mem_blk (t : Fin cfg0.N) (i : S8192x4096.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v4).slice (win0_6.rect t)).set ↔ _
  rw [View.set_slice_whole, Rect.mem_set_unit]
  exact Iff.rfl

/-- Every index of the result is in some point's block: row r, column n is in the block of point
    (r / 1024, n / 512). -/
theorem cover (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 64 := N_0
  have hlt : 8 * ((i 0).val / 1024) + (i 1).val / 512 < cfg0.N := by omega
  obtain ⟨-, -, -, -, -, -, -, -, -, -, -, -, h0, h1⟩ := idx_facts ⟨8 * ((i 0).val / 1024) + (i 1).val / 512, hlt⟩
  refine ⟨⟨8 * ((i 0).val / 1024) + (i 1).val / 512, hlt⟩, flush0_6 _, ?_⟩
  rw [mem_blk]
  intro a
  match a with
  | ⟨0, _⟩ =>
    show win0_6.index ⟨8 * ((i 0).val / 1024) + (i 1).val / 512, hlt⟩ 0 * 1024 ≤ (i 0).val
      ∧ (i 0).val < win0_6.index ⟨8 * ((i 0).val / 1024) + (i 1).val / 512, hlt⟩ 0 * 1024 + 1024
    rw [h0]; show (8 * ((i 0).val / 1024) + (i 1).val / 512) / 8 * 1024 ≤ _ ∧ _ < (8 * ((i 0).val / 1024) + (i 1).val / 512) / 8 * 1024 + 1024
    omega
  | ⟨1, _⟩ =>
    show win0_6.index ⟨8 * ((i 0).val / 1024) + (i 1).val / 512, hlt⟩ 1 * 512 ≤ (i 1).val
      ∧ (i 1).val < win0_6.index ⟨8 * ((i 0).val / 1024) + (i 1).val / 512, hlt⟩ 1 * 512 + 512
    rw [h1]; show (8 * ((i 0).val / 1024) + (i 1).val / 512) % 8 * 512 ≤ _ ∧ _ < (8 * ((i 0).val / 1024) + (i 1).val / 512) % 8 * 512 + 512
    omega

/-- THE RESULT ARRAY after the run is the result function of the six arguments. -/
theorem final (c : Dev nD) : (dats m 0 c).arrAt 6 cfg0.N = result m c :=
  (dats m 0 c).arrAt_eq_of_cover 6 (result m c) (fun t _ => flushed_eq m c t) cover

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  The kernel — a blocked matrix product followed by a per-column normalisation, an affine map, the tanh form of GELU
  and a positive part — computes what its reference computes, over the extended reals, wherever no variance is
  negative.

  Both programs form `acc = x · w` and then, column by column, `act (γ · xnorm + β)`. The kernel normalises by the product
  with the reciprocal root of `σ² + ε`; the reference by the quotient by the root. For `σ² ≥ 0` the radicand is
  positive, since `ε` is, and the two are one extended real (Proof/Epilogue.lean); for a negative radicand they are
  not, which is why the precondition asks `σ² ≥ 0` (Proof/VarianceDomain.lean reads it back). The kernel's result array
  is assembled from its 64 blocks (Proof/KernelElement.lean, Proof/KernelArray.lean) and the reference's is read stage
  by stage (Proof/ReferenceElement.lean); both are `Cert.Epilogue.out` of the six arguments. The idealization rewrote
  nothing, so its claim is empty.
-/
import proofs.«135392_j3556232922286_1_alg».proof.Defs
import proofs.«135392_j3556232922286_1_alg».proof.Proof.Gen.Kernel
import proofs.«135392_j3556232922286_1_alg».proof.Proof.Gen.Kernel.Skeleton
import proofs.«135392_j3556232922286_1_alg».proof.Proof.Gen.Kernel.Launch
import proofs.«135392_j3556232922286_1_alg».proof.Proof.Gen.Kernel.Points
import proofs.«135392_j3556232922286_1_alg».proof.Proof.Gen.Kernel.Frame
import proofs.«135392_j3556232922286_1_alg».proof.Proof.Gen.KernelIdeal
import proofs.«135392_j3556232922286_1_alg».proof.Proof.Gen.KernelIdeal.Skeleton
import proofs.«135392_j3556232922286_1_alg».proof.Proof.Gen.KernelIdeal.Launch
import proofs.«135392_j3556232922286_1_alg».proof.Proof.Gen.KernelIdeal.Points
import proofs.«135392_j3556232922286_1_alg».proof.Proof.Gen.KernelIdeal.Frame
import proofs.«135392_j3556232922286_1_alg».proof.Proof.Gen.ReferenceIdeal
import proofs.«135392_j3556232922286_1_alg».proof.Proof.Gen.Pre_finite_inputs
import proofs.«135392_j3556232922286_1_alg».proof.Proof.Gen.KernelIdeal.Value
import proofs.«135392_j3556232922286_1_alg».proof.Proof.Gen.ReferenceIdeal.Run
import proofs.«135392_j3556232922286_1_alg».proof.Proof.Gen.ReferenceIdeal.Read
import proofs.«135392_j3556232922286_1_alg».proof.Proof.VarianceDomain
import proofs.«135392_j3556232922286_1_alg».proof.Proof.ReferenceElement
import proofs.«135392_j3556232922286_1_alg».proof.Proof.KernelArray
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, with no negative variance, both runs end with the result array at
    `Cert.Epilogue.out` of the arguments. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2]
  exact Cert.ReferenceIdeal.Element.result_eq _ _ _ _ _ _
    (fun n => Cert.Pre_finite_inputs.Decode.var_nonneg _ _ _ _ _ _ (hpre c) n)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
